-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x1 .f32) (main_arg12 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_arg11 : FVec F S128x1 .f32) (main_arg12 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x512 .f32) (main_arg4 : FVec F S512 .f32) (main_arg5 : FVec F S512x256 .f32) (main_arg6 : FVec F S256 .f32) (main_arg7 : FVec F S256x256 .f32) (main_arg8 : FVec F S256 .f32) (main_arg9 : FVec F S256x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x512 : Shape := ⟨2, ![50000, 512]⟩
abbrev S5000x128 : Shape := ⟨2, ![5000, 128]⟩
abbrev S5000x512 : Shape := ⟨2, ![5000, 512]⟩
abbrev S1x512 : Shape := ⟨2, ![1, 512]⟩
abbrev S50000x256 : Shape := ⟨2, ![50000, 256]⟩
abbrev S5000x256 : Shape := ⟨2, ![5000, 256]⟩
abbrev S850000x256 : Shape := ⟨2, ![850000, 256]⟩
abbrev S1x256 : Shape := ⟨2, ![1, 256]⟩
abbrev S50000x1 : Shape := ⟨2, ![50000, 1]⟩
abbrev S256x1 : Shape := ⟨2, ![256, 1]⟩
abbrev S1x128 : Shape := ⟨2, ![1, 128]⟩
abbrev S1x1 : Shape := ⟨2, ![1, 1]⟩

abbrev nBuf : Space → Nat
  | .hbm => 120
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x512, .f32⟩
  | .hbm, ⟨47, _⟩ => ⟨S50000x256, .f32⟩
  | .hbm, ⟨48, _⟩ => ⟨S850000x1, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S850000x1, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x256, .f32⟩
  | .hbm, ⟨82, _⟩ => ⟨S850000x256, .f32⟩
  | .hbm, ⟨83, _⟩ => ⟨S_, .f32⟩
  | .hbm, ⟨84, _⟩ => ⟨S50000x256, .f32⟩
  | .hbm, ⟨85, _⟩ => ⟨S850000x1, .i32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S_, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S256x256, .f32⟩
  | .hbm, ⟨95, _⟩ => ⟨S50000x1, .i32⟩
  | .hbm, ⟨96, _⟩ => ⟨S256x256, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S256, .f32⟩
  | .hbm, ⟨101, _⟩ => ⟨S50000x1, .i32⟩
  | .hbm, ⟨102, _⟩ => ⟨S256, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S256x1, .f32⟩
  | .hbm, ⟨107, _⟩ => ⟨S256x256, .f32⟩
  | .hbm, ⟨108, _⟩ => ⟨S256x256, .f32⟩
  | .hbm, ⟨109, _⟩ => ⟨S256x128, .f32⟩
  | .hbm, ⟨110, _⟩ => ⟨S1x128, .f32⟩
  | .hbm, ⟨111, _⟩ => ⟨S256x128, .f32⟩
  | .hbm, ⟨112, _⟩ => ⟨S256x128, .f32⟩
  | .hbm, ⟨113, _⟩ => ⟨S_, .f32⟩
  | .hbm, ⟨114, _⟩ => ⟨S256x128, .f32⟩
  | .hbm, ⟨115, _⟩ => ⟨S256x128, .f32⟩
  | .hbm, ⟨116, _⟩ => ⟨S256x1, .f32⟩
  | .hbm, ⟨117, _⟩ => ⟨S1x1, .f32⟩
  | .hbm, ⟨118, _⟩ => ⟨S256x1, .f32⟩
  | .hbm, ⟨119, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S512, .f32⟩
  | .local _ .vmem, ⟨4, _⟩ => ⟨S5000x512, .f32⟩
  | .local _ .vmem, ⟨5, _⟩ => ⟨S5000x512, .f32⟩
  | .local _ .vmem, ⟨6, _⟩ => ⟨S5000x512, .f32⟩
  | .local _ .vmem, ⟨7, _⟩ => ⟨S5000x512, .f32⟩
  | .local _ .vmem, ⟨8, _⟩ => ⟨S512x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S5000x256, .f32⟩
  | .local _ .vmem, ⟨15, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call0_cst : Ref sig .tc := ⟨.hbm, 67, rfl⟩
abbrev main_call0_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call2_cst : Ref sig .tc := ⟨.hbm, 113, rfl⟩
abbrev main_call2_v0 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S256x256 : S_.BroadcastsInDim S256x256 (![] : Fin 0 → Fin S256x256.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x512_S5000x512_1_0_0_1_n_n_wf : DotDims.WF S5000x128 S128x512 S5000x512 [1] [0] [0] [1] [] []
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S50000x512.size a
  hwx0_3 : ∀ i : grid0.Coords, EltTy.bits .f32 = 32 ∨ (Rect.block (s := S50000x512) S5000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .f32 = 32 ∨ (Rect.block (s := S50000x512) S5000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x512 : Shape := ⟨2, ![50000, 512]⟩
abbrev S1x512 : Shape := ⟨2, ![1, 512]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S256x1 : Shape := ⟨2, ![256, 1]⟩
abbrev S1x128 : Shape := ⟨2, ![1, 128]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x512, .f32⟩
  | .hbm, ⟨47, _⟩ => ⟨S1x512, .f32⟩
  | .hbm, ⟨48, _⟩ => ⟨S50000x512, .f32⟩
  | .hbm, ⟨49, _⟩ => ⟨S50000x512, .f32⟩
  | .hbm, ⟨50, _⟩ => ⟨S_, .f32⟩
  | .hbm, ⟨51, _⟩ => ⟨S50000x512, .f32⟩
  | .hbm, ⟨52, _⟩ => ⟨S50000x512, .f32⟩
  | .hbm, ⟨53, _⟩ => ⟨S50000x256, .f32⟩
  | .hbm, ⟨54, _⟩ => ⟨S850000x1, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S850000x1, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x256, .f32⟩
  | .hbm, ⟨87, _⟩ => ⟨S850000x256, .f32⟩
  | .hbm, ⟨88, _⟩ => ⟨S850000x256, .f32⟩
  | .hbm, ⟨89, _⟩ => ⟨S_, .f32⟩
  | .hbm, ⟨90, _⟩ => ⟨S50000x256, .f32⟩
  | .hbm, ⟨91, _⟩ => ⟨S850000x1, .i32⟩
  | .hbm, ⟨92, _⟩ => ⟨S50000x256, .f32⟩
  | .hbm, ⟨93, _⟩ => ⟨S1x256, .f32⟩
  | .hbm, ⟨94, _⟩ => ⟨S50000x256, .f32⟩
  | .hbm, ⟨95, _⟩ => ⟨S50000x256, .f32⟩
  | .hbm, ⟨96, _⟩ => ⟨S_, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S256x256, .f32⟩
  | .hbm, ⟨101, _⟩ => ⟨S50000x1, .i32⟩
  | .hbm, ⟨102, _⟩ => ⟨S256x256, .f32⟩
  | .hbm, ⟨103, _⟩ => ⟨S_, .f32⟩
  | .hbm, ⟨104, _⟩ => ⟨S50000, .f32⟩
  | .hbm, ⟨105, _⟩ => ⟨S_, .f32⟩
  | .hbm, ⟨106, _⟩ => ⟨S256, .f32⟩
  | .hbm, ⟨107, _⟩ => ⟨S50000x1, .i32⟩
  | .hbm, ⟨108, _⟩ => ⟨S256, .f32⟩
  | .hbm, ⟨109, _⟩ => ⟨S_, .f32⟩
  | .hbm, ⟨110, _⟩ => ⟨S256, .f32⟩
  | .hbm, ⟨111, _⟩ => ⟨S256, .f32⟩
  | .hbm, ⟨112, _⟩ => ⟨S256x1, .f32⟩
  | .hbm, ⟨113, _⟩ => ⟨S256x256, .f32⟩
  | .hbm, ⟨114, _⟩ => ⟨S256x256, .f32⟩
  | .hbm, ⟨115, _⟩ => ⟨S256x128, .f32⟩
  | .hbm, ⟨116, _⟩ => ⟨S1x128, .f32⟩
  | .hbm, ⟨117, _⟩ => ⟨S256x128, .f32⟩
  | .hbm, ⟨118, _⟩ => ⟨S256x128, .f32⟩
  | .hbm, ⟨119, _⟩ => ⟨S_, .f32⟩
  | .hbm, ⟨120, _⟩ => ⟨S256x128, .f32⟩
  | .hbm, ⟨121, _⟩ => ⟨S256x128, .f32⟩
  | .hbm, ⟨122, _⟩ => ⟨S256x1, .f32⟩
  | .hbm, ⟨123, _⟩ => ⟨S1x1, .f32⟩
  | .hbm, ⟨124, _⟩ => ⟨S256x1, .f32⟩
  | .hbm, ⟨125, _⟩ => ⟨S256x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_7 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_cst_10 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_11 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call3_cst : Ref sig .tc := ⟨.hbm, 119, rfl⟩
abbrev main_call3_v0 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256x256 : S_.BroadcastsInDim S256x256 (![] : Fin 0 → Fin S256x256.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x512_S50000x512_1_0_0_1_n_n_wf : DotDims.WF S50000x128 S128x512 S50000x512 [1] [0] [0] [1] [] []
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.Walk.lean ====
/- Which buffers each item of the idealized kernel's @main leaves alone.
   The host stretch before the first matrix product writes only its own 33 intermediate values; each of the three
   row-tiled products writes only its result array; the stretch between the second and the third product writes its own
   22 values. So an argument array is read, at every boundary, as it was launched, and the three values the
   normalisation computes once (the source ids, the destination ids and the per-edge weight) are read at every later
   boundary as they were first computed. -/
import proofs.«143197_j30648886624547_1_alg».proof.Proof.Gen.KernelIdeal.Frame

set_option maxRecDepth 16384

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## What the host stretches write -/

/-- The values the normalisation stretch computes. -/
abbrev normW : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
theorem norm_writes : (hostOps0 : List (HloOp τ sig (Elt F))).Forall fun op => op.writes ⊆ (normW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The values the first aggregation stretch computes, up to its bias sum. -/
abbrev aggW : List (Ref sig .tc) := [main_v29, main_c_4, main_v30, main_v31, main_c_5, main_v32, main_v33, main_v34, main_v35, main_v36, main_v37, main_v38, main_cst_6, main_v39, main_v40, main_v41, main_v42, main_v43, main_v44]
theorem agg_writes : (hostOps2 : List (HloOp τ sig (Elt F))).Forall fun op => op.writes ⊆ (aggW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The values of the rectifier that follows it. -/
abbrev reluW : List (Ref sig .tc) := [main_call0_cst, main_call0_v0, main_v45]
theorem relu_writes : (hostOps2_1 : List (HloOp τ sig (Elt F))).Forall fun op => op.writes ⊆ (reluW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## What each item leaves unchanged -/

theorem W1_of (c : Dev nD) (r : Ref sig .tc) (h : r ∉ normW) : W1 m ρ c (Proc.devRef .tc r) = W0 m ρ c (Proc.devRef .tc r) :=
  StableHlo.after_of_writes_sub hostOps0 _ norm_writes h
theorem W2_of (c : Dev nD) (r : Ref sig .tc) (h : ∀ w, Pipeline.arrRef spec0 w ≠ r) : W2 m ρ c (Proc.devRef .tc r) = W1 m ρ c (Proc.devRef .tc r) :=
  W2_of_ne m ρ c r h
theorem W3_of (c : Dev nD) (r : Ref sig .tc) (h : ∀ w, Pipeline.arrRef spec1 w ≠ r) : W3 m ρ c (Proc.devRef .tc r) = W2 m ρ c (Proc.devRef .tc r) :=
  W3_of_ne m ρ c r h
theorem W5_of (c : Dev nD) (r : Ref sig .tc) (h : r ∉ aggW) (h' : r ∉ reluW) : W5 m ρ c (Proc.devRef .tc r) = W3 m ρ c (Proc.devRef .tc r) :=
  (StableHlo.after_of_writes_sub hostOps2_1 _ relu_writes h').trans (StableHlo.after_of_writes_sub hostOps2 _ agg_writes h)
theorem W6_of (c : Dev nD) (r : Ref sig .tc) (h : ∀ w, Pipeline.arrRef spec2 w ≠ r) : W6 m ρ c (Proc.devRef .tc r) = W5 m ρ c (Proc.devRef .tc r) :=
  W6_of_ne m ρ c r h

/-! ## The argument arrays at the boundaries where something reads them -/

theorem W1_arg0 (c : Dev nD) : W1 m ρ c (Proc.devRef .tc main_arg0) = m ((c.tc : Thread nD τ).loc main_arg0) :=
  W1_of m ρ c main_arg0 (by decide)
theorem W1_arg3 (c : Dev nD) : W1 m ρ c (Proc.devRef .tc main_arg3) = m ((c.tc : Thread nD τ).loc main_arg3) :=
  W1_of m ρ c main_arg3 (by decide)
theorem W1_arg4 (c : Dev nD) : W1 m ρ c (Proc.devRef .tc main_arg4) = m ((c.tc : Thread nD τ).loc main_arg4) :=
  W1_of m ρ c main_arg4 (by decide)
theorem W1_arg1 (c : Dev nD) : W1 m ρ c (Proc.devRef .tc main_arg1) = m ((c.tc : Thread nD τ).loc main_arg1) :=
  W1_of m ρ c main_arg1 (by decide)
theorem W1_arg2 (c : Dev nD) : W1 m ρ c (Proc.devRef .tc main_arg2) = m ((c.tc : Thread nD τ).loc main_arg2) :=
  W1_of m ρ c main_arg2 (by decide)
theorem W1_arg5 (c : Dev nD) : W1 m ρ c (Proc.devRef .tc main_arg5) = m ((c.tc : Thread nD τ).loc main_arg5) :=
  W1_of m ρ c main_arg5 (by decide)
theorem W1_arg6 (c : Dev nD) : W1 m ρ c (Proc.devRef .tc main_arg6) = m ((c.tc : Thread nD τ).loc main_arg6) :=
  W1_of m ρ c main_arg6 (by decide)
theorem W1_arg7 (c : Dev nD) : W1 m ρ c (Proc.devRef .tc main_arg7) = m ((c.tc : Thread nD τ).loc main_arg7) :=
  W1_of m ρ c main_arg7 (by decide)
theorem W1_arg8 (c : Dev nD) : W1 m ρ c (Proc.devRef .tc main_arg8) = m ((c.tc : Thread nD τ).loc main_arg8) :=
  W1_of m ρ c main_arg8 (by decide)
theorem W1_arg9 (c : Dev nD) : W1 m ρ c (Proc.devRef .tc main_arg9) = m ((c.tc : Thread nD τ).loc main_arg9) :=
  W1_of m ρ c main_arg9 (by decide)
theorem W1_arg10 (c : Dev nD) : W1 m ρ c (Proc.devRef .tc main_arg10) = m ((c.tc : Thread nD τ).loc main_arg10) :=
  W1_of m ρ c main_arg10 (by decide)
theorem W1_arg11 (c : Dev nD) : W1 m ρ c (Proc.devRef .tc main_arg11) = m ((c.tc : Thread nD τ).loc main_arg11) :=
  W1_of m ρ c main_arg11 (by decide)
theorem W1_arg12 (c : Dev nD) : W1 m ρ c (Proc.devRef .tc main_arg12) = m ((c.tc : Thread nD τ).loc main_arg12) :=
  W1_of m ρ c main_arg12 (by decide)
theorem W2_arg1 (c : Dev nD) : W2 m ρ c (Proc.devRef .tc main_arg1) = m ((c.tc : Thread nD τ).loc main_arg1) :=
  (W2_of m ρ c main_arg1 (by decide)).trans (W1_arg1 m ρ c)
theorem W2_arg2 (c : Dev nD) : W2 m ρ c (Proc.devRef .tc main_arg2) = m ((c.tc : Thread nD τ).loc main_arg2) :=
  (W2_of m ρ c main_arg2 (by decide)).trans (W1_arg2 m ρ c)
theorem W2_arg5 (c : Dev nD) : W2 m ρ c (Proc.devRef .tc main_arg5) = m ((c.tc : Thread nD τ).loc main_arg5) :=
  (W2_of m ρ c main_arg5 (by decide)).trans (W1_arg5 m ρ c)
theorem W2_arg6 (c : Dev nD) : W2 m ρ c (Proc.devRef .tc main_arg6) = m ((c.tc : Thread nD τ).loc main_arg6) :=
  (W2_of m ρ c main_arg6 (by decide)).trans (W1_arg6 m ρ c)
theorem W2_arg7 (c : Dev nD) : W2 m ρ c (Proc.devRef .tc main_arg7) = m ((c.tc : Thread nD τ).loc main_arg7) :=
  (W2_of m ρ c main_arg7 (by decide)).trans (W1_arg7 m ρ c)
theorem W2_arg8 (c : Dev nD) : W2 m ρ c (Proc.devRef .tc main_arg8) = m ((c.tc : Thread nD τ).loc main_arg8) :=
  (W2_of m ρ c main_arg8 (by decide)).trans (W1_arg8 m ρ c)
theorem W2_arg9 (c : Dev nD) : W2 m ρ c (Proc.devRef .tc main_arg9) = m ((c.tc : Thread nD τ).loc main_arg9) :=
  (W2_of m ρ c main_arg9 (by decide)).trans (W1_arg9 m ρ c)
theorem W2_arg10 (c : Dev nD) : W2 m ρ c (Proc.devRef .tc main_arg10) = m ((c.tc : Thread nD τ).loc main_arg10) :=
  (W2_of m ρ c main_arg10 (by decide)).trans (W1_arg10 m ρ c)
theorem W2_arg11 (c : Dev nD) : W2 m ρ c (Proc.devRef .tc main_arg11) = m ((c.tc : Thread nD τ).loc main_arg11) :=
  (W2_of m ρ c main_arg11 (by decide)).trans (W1_arg11 m ρ c)
theorem W2_arg12 (c : Dev nD) : W2 m ρ c (Proc.devRef .tc main_arg12) = m ((c.tc : Thread nD τ).loc main_arg12) :=
  (W2_of m ρ c main_arg12 (by decide)).trans (W1_arg12 m ρ c)
theorem W3_arg1 (c : Dev nD) : W3 m ρ c (Proc.devRef .tc main_arg1) = m ((c.tc : Thread nD τ).loc main_arg1) :=
  (W3_of m ρ c main_arg1 (by decide)).trans (W2_arg1 m ρ c)
theorem W3_arg2 (c : Dev nD) : W3 m ρ c (Proc.devRef .tc main_arg2) = m ((c.tc : Thread nD τ).loc main_arg2) :=
  (W3_of m ρ c main_arg2 (by decide)).trans (W2_arg2 m ρ c)
theorem W3_arg6 (c : Dev nD) : W3 m ρ c (Proc.devRef .tc main_arg6) = m ((c.tc : Thread nD τ).loc main_arg6) :=
  (W3_of m ρ c main_arg6 (by decide)).trans (W2_arg6 m ρ c)
theorem W3_arg7 (c : Dev nD) : W3 m ρ c (Proc.devRef .tc main_arg7) = m ((c.tc : Thread nD τ).loc main_arg7) :=
  (W3_of m ρ c main_arg7 (by decide)).trans (W2_arg7 m ρ c)
theorem W3_arg8 (c : Dev nD) : W3 m ρ c (Proc.devRef .tc main_arg8) = m ((c.tc : Thread nD τ).loc main_arg8) :=
  (W3_of m ρ c main_arg8 (by decide)).trans (W2_arg8 m ρ c)
theorem W3_arg9 (c : Dev nD) : W3 m ρ c (Proc.devRef .tc main_arg9) = m ((c.tc : Thread nD τ).loc main_arg9) :=
  (W3_of m ρ c main_arg9 (by decide)).trans (W2_arg9 m ρ c)
theorem W3_arg10 (c : Dev nD) : W3 m ρ c (Proc.devRef .tc main_arg10) = m ((c.tc : Thread nD τ).loc main_arg10) :=
  (W3_of m ρ c main_arg10 (by decide)).trans (W2_arg10 m ρ c)
theorem W3_arg11 (c : Dev nD) : W3 m ρ c (Proc.devRef .tc main_arg11) = m ((c.tc : Thread nD τ).loc main_arg11) :=
  (W3_of m ρ c main_arg11 (by decide)).trans (W2_arg11 m ρ c)
theorem W3_arg12 (c : Dev nD) : W3 m ρ c (Proc.devRef .tc main_arg12) = m ((c.tc : Thread nD τ).loc main_arg12) :=
  (W3_of m ρ c main_arg12 (by decide)).trans (W2_arg12 m ρ c)
theorem W5_arg1 (c : Dev nD) : W5 m ρ c (Proc.devRef .tc main_arg1) = m ((c.tc : Thread nD τ).loc main_arg1) :=
  (W5_of m ρ c main_arg1 (by decide) (by decide)).trans (W3_arg1 m ρ c)
theorem W5_arg2 (c : Dev nD) : W5 m ρ c (Proc.devRef .tc main_arg2) = m ((c.tc : Thread nD τ).loc main_arg2) :=
  (W5_of m ρ c main_arg2 (by decide) (by decide)).trans (W3_arg2 m ρ c)
theorem W5_arg7 (c : Dev nD) : W5 m ρ c (Proc.devRef .tc main_arg7) = m ((c.tc : Thread nD τ).loc main_arg7) :=
  (W5_of m ρ c main_arg7 (by decide) (by decide)).trans (W3_arg7 m ρ c)
theorem W5_arg8 (c : Dev nD) : W5 m ρ c (Proc.devRef .tc main_arg8) = m ((c.tc : Thread nD τ).loc main_arg8) :=
  (W5_of m ρ c main_arg8 (by decide) (by decide)).trans (W3_arg8 m ρ c)
theorem W5_arg9 (c : Dev nD) : W5 m ρ c (Proc.devRef .tc main_arg9) = m ((c.tc : Thread nD τ).loc main_arg9) :=
  (W5_of m ρ c main_arg9 (by decide) (by decide)).trans (W3_arg9 m ρ c)
theorem W5_arg10 (c : Dev nD) : W5 m ρ c (Proc.devRef .tc main_arg10) = m ((c.tc : Thread nD τ).loc main_arg10) :=
  (W5_of m ρ c main_arg10 (by decide) (by decide)).trans (W3_arg10 m ρ c)
theorem W5_arg11 (c : Dev nD) : W5 m ρ c (Proc.devRef .tc main_arg11) = m ((c.tc : Thread nD τ).loc main_arg11) :=
  (W5_of m ρ c main_arg11 (by decide) (by decide)).trans (W3_arg11 m ρ c)
theorem W5_arg12 (c : Dev nD) : W5 m ρ c (Proc.devRef .tc main_arg12) = m ((c.tc : Thread nD τ).loc main_arg12) :=
  (W5_of m ρ c main_arg12 (by decide) (by decide)).trans (W3_arg12 m ρ c)
theorem W6_arg1 (c : Dev nD) : W6 m ρ c (Proc.devRef .tc main_arg1) = m ((c.tc : Thread nD τ).loc main_arg1) :=
  (W6_of m ρ c main_arg1 (by decide)).trans (W5_arg1 m ρ c)
theorem W6_arg2 (c : Dev nD) : W6 m ρ c (Proc.devRef .tc main_arg2) = m ((c.tc : Thread nD τ).loc main_arg2) :=
  (W6_of m ρ c main_arg2 (by decide)).trans (W5_arg2 m ρ c)
theorem W6_arg8 (c : Dev nD) : W6 m ρ c (Proc.devRef .tc main_arg8) = m ((c.tc : Thread nD τ).loc main_arg8) :=
  (W6_of m ρ c main_arg8 (by decide)).trans (W5_arg8 m ρ c)
theorem W6_arg9 (c : Dev nD) : W6 m ρ c (Proc.devRef .tc main_arg9) = m ((c.tc : Thread nD τ).loc main_arg9) :=
  (W6_of m ρ c main_arg9 (by decide)).trans (W5_arg9 m ρ c)
theorem W6_arg10 (c : Dev nD) : W6 m ρ c (Proc.devRef .tc main_arg10) = m ((c.tc : Thread nD τ).loc main_arg10) :=
  (W6_of m ρ c main_arg10 (by decide)).trans (W5_arg10 m ρ c)
theorem W6_arg11 (c : Dev nD) : W6 m ρ c (Proc.devRef .tc main_arg11) = m ((c.tc : Thread nD τ).loc main_arg11) :=
  (W6_of m ρ c main_arg11 (by decide)).trans (W5_arg11 m ρ c)
theorem W6_arg12 (c : Dev nD) : W6 m ρ c (Proc.devRef .tc main_arg12) = m ((c.tc : Thread nD τ).loc main_arg12) :=
  (W6_of m ρ c main_arg12 (by decide)).trans (W5_arg12 m ρ c)

/-! ## The normalisation's three values at the later boundaries -/

theorem W3_v3 (c : Dev nD) : W3 m ρ c (Proc.devRef .tc main_v3) = W1 m ρ c (Proc.devRef .tc main_v3) :=
  (W3_of m ρ c main_v3 (by decide)).trans (W2_of m ρ c main_v3 (by decide))
theorem W6_v3 (c : Dev nD) : W6 m ρ c (Proc.devRef .tc main_v3) = W1 m ρ c (Proc.devRef .tc main_v3) :=
  ((W6_of m ρ c main_v3 (by decide)).trans (W5_of m ρ c main_v3 (by decide) (by decide))).trans (W3_v3 m ρ c)
theorem W3_v6 (c : Dev nD) : W3 m ρ c (Proc.devRef .tc main_v6) = W1 m ρ c (Proc.devRef .tc main_v6) :=
  (W3_of m ρ c main_v6 (by decide)).trans (W2_of m ρ c main_v6 (by decide))
theorem W6_v6 (c : Dev nD) : W6 m ρ c (Proc.devRef .tc main_v6) = W1 m ρ c (Proc.devRef .tc main_v6) :=
  ((W6_of m ρ c main_v6 (by decide)).trans (W5_of m ρ c main_v6 (by decide) (by decide))).trans (W3_v6 m ρ c)
theorem W3_v26 (c : Dev nD) : W3 m ρ c (Proc.devRef .tc main_v26) = W1 m ρ c (Proc.devRef .tc main_v26) :=
  (W3_of m ρ c main_v26 (by decide)).trans (W2_of m ρ c main_v26 (by decide))
theorem W6_v26 (c : Dev nD) : W6 m ρ c (Proc.devRef .tc main_v26) = W1 m ρ c (Proc.devRef .tc main_v26) :=
  ((W6_of m ρ c main_v26 (by decide)).trans (W5_of m ρ c main_v26 (by decide) (by decide))).trans (W3_v26 m ρ c)

end Cert.KernelIdeal.Walk

end
-- ==== Proof.HostStages.lean ====
/- The host stretches of the idealized kernel, read against the reference's stages.
   Outside its three row-tiled matrix products the kernel's @main is, operation for operation and literal for literal,
   the reference's @main: the symmetric normalisation (source and destination ids with self-loops, degrees by
   scatter-add, their inverse square roots gathered and multiplied per edge), then per graph convolution the gather of
   the product's rows, the scaling, the scatter-add, the bias and the rectifier, and at the end the mean pooling and the
   two small dense layers. So each stretch's value is the reference's stage of the same name as soon as the values it
   starts from are the reference's: the equations below are closed by running the stretch's operations and comparing
   the two texts; no arithmetic is opened. -/
import proofs.«143197_j30648886624547_1_alg».proof.Proof.Walk
import proofs.«143197_j30648886624547_1_alg».proof.Proof.Gen.ReferenceIdeal.Read
import Idealize.ShloMosaic.Lib.StableHlo.Run

set_option maxRecDepth 16384

noncomputable section

namespace Cert.KernelIdeal.HostStages

open Idealize.ShloMosaic Idealize.ShloMosaic.TcCoe Idealize.SL.Sem Idealize.ShloMosaic.StableHlo
open Cert.KernelIdeal Cert.KernelIdeal.Gen Cert.KernelIdeal.Walk
open Cert.ReferenceIdeal.Read

/-- Runs what one simplification pass of a stretch's operations leaves behind: the operands of a concatenation sit
    inside dependent pairs, where only rewriting reaches them. -/
macro "finish_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ) (ρ : Dev nD → PrngReg)

/-! ## A called function's buffers

The rectifier is an outlined function; each of its values is typed twice, as the function's tensor and as the buffer
that holds it. For each of these buffers the two types are one type, so the transport between them is the identity (the two
scalar zeros of the later calls have one type and are covered by one pair of equations). -/

theorem toBuf_v45 (h1 : main_v45.ty = (⟨S50000x256, .f32⟩ : BufTy)) (h2 : main_v45.space ≠ .host) (h3 : main_v45.isScoped = false)
    (v : (⟨S50000x256, .f32⟩ : BufTy).Contents (Elt Ideal)) : (StableHlo.TRef.of main_v45 h1 h2 h3).toBuf v = v := rfl
theorem toBuf_v63 (h1 : main_v63.ty = (⟨S50000x256, .f32⟩ : BufTy)) (h2 : main_v63.space ≠ .host) (h3 : main_v63.isScoped = false)
    (v : (⟨S50000x256, .f32⟩ : BufTy).Contents (Elt Ideal)) : (StableHlo.TRef.of main_v63 h1 h2 h3).toBuf v = v := rfl
theorem toBuf_v80 (h1 : main_v80.ty = (⟨S256x128, .f32⟩ : BufTy)) (h2 : main_v80.space ≠ .host) (h3 : main_v80.isScoped = false)
    (v : (⟨S256x128, .f32⟩ : BufTy).Contents (Elt Ideal)) : (StableHlo.TRef.of main_v80 h1 h2 h3).toBuf v = v := rfl
theorem toBuf_call0_v0 (h1 : main_call0_v0.ty = (⟨S50000x256, .f32⟩ : BufTy)) (h2 : main_call0_v0.space ≠ .host) (h3 : main_call0_v0.isScoped = false)
    (v : (⟨S50000x256, .f32⟩ : BufTy).Contents (Elt Ideal)) : (StableHlo.TRef.of main_call0_v0 h1 h2 h3).toBuf v = v := rfl
theorem toBuf_call0_cst (h1 : main_call0_cst.ty = (⟨S_, .f32⟩ : BufTy)) (h2 : main_call0_cst.space ≠ .host) (h3 : main_call0_cst.isScoped = false)
    (v : (⟨S_, .f32⟩ : BufTy).Contents (Elt Ideal)) : (StableHlo.TRef.of main_call0_cst h1 h2 h3).toBuf v = v := rfl
theorem toBuf_call1_v0 (h1 : main_call1_v0.ty = (⟨S50000x256, .f32⟩ : BufTy)) (h2 : main_call1_v0.space ≠ .host) (h3 : main_call1_v0.isScoped = false)
    (v : (⟨S50000x256, .f32⟩ : BufTy).Contents (Elt Ideal)) : (StableHlo.TRef.of main_call1_v0 h1 h2 h3).toBuf v = v := rfl
theorem toBuf_call1_cst (h1 : main_call1_cst.ty = (⟨S_, .f32⟩ : BufTy)) (h2 : main_call1_cst.space ≠ .host) (h3 : main_call1_cst.isScoped = false)
    (v : (⟨S_, .f32⟩ : BufTy).Contents (Elt Ideal)) : (StableHlo.TRef.of main_call1_cst h1 h2 h3).toBuf v = v := rfl
theorem toBuf_call2_v0 (h1 : main_call2_v0.ty = (⟨S256x128, .f32⟩ : BufTy)) (h2 : main_call2_v0.space ≠ .host) (h3 : main_call2_v0.isScoped = false)
    (v : (⟨S256x128, .f32⟩ : BufTy).Contents (Elt Ideal)) : (StableHlo.TRef.of main_call2_v0 h1 h2 h3).toBuf v = v := rfl
theorem ofBuf_v44 (h1 : main_v44.ty = (⟨S50000x256, .f32⟩ : BufTy)) (h2 : main_v44.space ≠ .host) (h3 : main_v44.isScoped = false)
    (v : (⟨S50000x256, .f32⟩ : BufTy).Contents (Elt Ideal)) : (StableHlo.TRef.of main_v44 h1 h2 h3).ofBuf v = v := rfl
theorem ofBuf_v62 (h1 : main_v62.ty = (⟨S50000x256, .f32⟩ : BufTy)) (h2 : main_v62.space ≠ .host) (h3 : main_v62.isScoped = false)
    (v : (⟨S50000x256, .f32⟩ : BufTy).Contents (Elt Ideal)) : (StableHlo.TRef.of main_v62 h1 h2 h3).ofBuf v = v := rfl
theorem ofBuf_v79 (h1 : main_v79.ty = (⟨S256x128, .f32⟩ : BufTy)) (h2 : main_v79.space ≠ .host) (h3 : main_v79.isScoped = false)
    (v : (⟨S256x128, .f32⟩ : BufTy).Contents (Elt Ideal)) : (StableHlo.TRef.of main_v79 h1 h2 h3).ofBuf v = v := rfl
theorem ofBuf_call0_v0 (h1 : main_call0_v0.ty = (⟨S50000x256, .f32⟩ : BufTy)) (h2 : main_call0_v0.space ≠ .host) (h3 : main_call0_v0.isScoped = false)
    (v : (⟨S50000x256, .f32⟩ : BufTy).Contents (Elt Ideal)) : (StableHlo.TRef.of main_call0_v0 h1 h2 h3).ofBuf v = v := rfl
theorem ofBuf_call0_cst (h1 : main_call0_cst.ty = (⟨S_, .f32⟩ : BufTy)) (h2 : main_call0_cst.space ≠ .host) (h3 : main_call0_cst.isScoped = false)
    (v : (⟨S_, .f32⟩ : BufTy).Contents (Elt Ideal)) : (StableHlo.TRef.of main_call0_cst h1 h2 h3).ofBuf v = v := rfl
theorem ofBuf_call1_v0 (h1 : main_call1_v0.ty = (⟨S50000x256, .f32⟩ : BufTy)) (h2 : main_call1_v0.space ≠ .host) (h3 : main_call1_v0.isScoped = false)
    (v : (⟨S50000x256, .f32⟩ : BufTy).Contents (Elt Ideal)) : (StableHlo.TRef.of main_call1_v0 h1 h2 h3).ofBuf v = v := rfl
theorem ofBuf_call1_cst (h1 : main_call1_cst.ty = (⟨S_, .f32⟩ : BufTy)) (h2 : main_call1_cst.space ≠ .host) (h3 : main_call1_cst.isScoped = false)
    (v : (⟨S_, .f32⟩ : BufTy).Contents (Elt Ideal)) : (StableHlo.TRef.of main_call1_cst h1 h2 h3).ofBuf v = v := rfl
theorem ofBuf_call2_v0 (h1 : main_call2_v0.ty = (⟨S256x128, .f32⟩ : BufTy)) (h2 : main_call2_v0.space ≠ .host) (h3 : main_call2_v0.isScoped = false)
    (v : (⟨S256x128, .f32⟩ : BufTy).Contents (Elt Ideal)) : (StableHlo.TRef.of main_call2_v0 h1 h2 h3).ofBuf v = v := rfl

/-! ## The normalisation -/

/-- Source ids with self-loops appended. -/
theorem src_eq (c : Dev nD) :
    W1 m ρ c (Proc.devRef .tc main_v3) = val_main_v3 (F := Ideal) (m ((c.tc : Thread nD τ).loc main_arg1)) := by
  show StableHlo.after hostOps0 (W0 m ρ c) (Proc.devRef .tc main_v3) = _
  after_results_simp
  finish_results
  rfl

/-- Destination ids with self-loops appended. -/
theorem dst_eq (c : Dev nD) :
    W1 m ρ c (Proc.devRef .tc main_v6) = val_main_v6 (F := Ideal) (m ((c.tc : Thread nD τ).loc main_arg1)) := by
  show StableHlo.after hostOps0 (W0 m ρ c) (Proc.devRef .tc main_v6) = _
  after_results_simp
  finish_results
  rfl

set_option maxHeartbeats 4000000 in
/-- The per-edge weight: the product of the two endpoints' inverse square-root degrees. -/
theorem norm_eq (c : Dev nD) :
    W1 m ρ c (Proc.devRef .tc main_v26) = val_main_v26 (F := Ideal) (m ((c.tc : Thread nD τ).loc main_arg1)) := by
  show StableHlo.after hostOps0 (W0 m ρ c) (Proc.devRef .tc main_v26) = _
  after_results_simp
  finish_results
  rfl

/-! ## The first graph convolution's aggregation -/

set_option maxHeartbeats 4000000 in
/-- If the second product's result array is the reference's `h · Wc1`, the rectified, biased aggregate the third
    product reads is the reference's. -/
theorem agg1_eq (c : Dev nD)
    (h28 : W3 m ρ c (Proc.devRef .tc main_v28) = val_main_v32 (F := Ideal) (m ((c.tc : Thread nD τ).loc main_arg0)) (m ((c.tc : Thread nD τ).loc main_arg3)) (m ((c.tc : Thread nD τ).loc main_arg4)) (m ((c.tc : Thread nD τ).loc main_arg5))) :
    W5 m ρ c (Proc.devRef .tc main_v45) = val_main_v49 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show StableHlo.after hostOps2_1 (StableHlo.after hostOps2 (W3 m ρ c)) (Proc.devRef .tc main_v45) = _
  after_results_simp
  rw [toBuf_v45, ofBuf_v44, ofBuf_call0_v0, toBuf_call0_v0, ofBuf_call0_cst, toBuf_call0_cst]
  rw [h28, W3_v26, W3_v3, W3_v6, src_eq, dst_eq, norm_eq, W3_arg6]
  rfl

/-! ## The second aggregation, the pooling and the head -/

set_option maxHeartbeats 4000000 in
/-- If the third product's result array is the reference's `h1 · Wc2`, @main's result is the reference's. -/
theorem head_eq (c : Dev nD)
    (h46 : W6 m ρ c (Proc.devRef .tc main_v46) = val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    W11 m ρ c (Proc.devRef .tc main_v84) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps3_4 (StableHlo.after hostOps3_3 (StableHlo.after hostOps3_2 (StableHlo.after hostOps3_1 (StableHlo.after hostOps3 (W6 m ρ c))))) (Proc.devRef .tc main_v84) = _
  after_results_simp
  rw [toBuf_v63, ofBuf_v62, ofBuf_call1_v0, toBuf_call1_v0, ofBuf_call1_cst, toBuf_call1_cst,
    toBuf_v80, ofBuf_v79, ofBuf_call2_v0, toBuf_call2_v0]
  rw [h46, W6_v26, W6_v3, W6_v6, src_eq, dst_eq, norm_eq, W6_arg2, W6_arg8, W6_arg9, W6_arg10, W6_arg11, W6_arg12]
  rfl

end Cert.KernelIdeal.HostStages

end
-- ==== Proof.Region0.lean ====
/- Region 0 of the idealized kernel: the first dense layer, row-tiled.
   Grid point t loads rows 5000·t … 5000·t + 4999 of the [50000, 128] input array, the whole [128, 512] weight array
   and the whole bias vector, and stores max(x · W1 + b1, 0) as rows 5000·t … of the [50000, 512] result (the product
   goes into a zero accumulator and the change of float format is the identity on extended reals; the bias is laid
   along every row). The ten row blocks tile the result, so after the region the result array is, entry by entry,
   (r, q) ↦ max(∑ k, x (r, k) · W1 (k, q) + b1 q, 0): the reference's rectified first layer. Both sides are the same
   sum, sum of two terms and maximum; no law of the extended reals is needed. -/
import proofs.«143197_j30648886624547_1_alg».proof.Proof.Gen.KernelIdeal.Frame
import proofs.«143197_j30648886624547_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen
open Cert.ReferenceIdeal.Read

variable (V : (c : Dev nD) → (b : Ref sig .tc) → Buf (Elt Ideal) ((c : Thread nD τ).loc b))

/-! ## The body's value at an entry -/

/-- Row coordinate of the left factor at output entry `j`: its own row. -/
theorem lhs_row (j : S5000x512.Idx) (q : dot_S5000x128_S128x512_S5000x512_1_0_0_1_n_n.contr.Idx) :
    (dot_S5000x128_S128x512_S5000x512_1_0_0_1_n_n.lhsIdx j q 0).val = (j 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
/-- Column coordinate of the left factor: the contracted index. -/
theorem lhs_col (j : S5000x512.Idx) (q : dot_S5000x128_S128x512_S5000x512_1_0_0_1_n_n.contr.Idx) :
    (dot_S5000x128_S128x512_S5000x512_1_0_0_1_n_n.lhsIdx j q 1).val = (q ⟨0, by decide⟩).val :=
  dot_S5000x128_S128x512_S5000x512_1_0_0_1_n_n.lhsIdx_val_of_single rfl j q
/-- Row coordinate of the right factor: the contracted index. -/
theorem rhs_row (j : S5000x512.Idx) (q : dot_S5000x128_S128x512_S5000x512_1_0_0_1_n_n.contr.Idx) :
    (dot_S5000x128_S128x512_S5000x512_1_0_0_1_n_n.rhsIdx j q 0).val = (q ⟨0, by decide⟩).val :=
  dot_S5000x128_S128x512_S5000x512_1_0_0_1_n_n.rhsIdx_val_of_single rfl j q
/-- Column coordinate of the right factor: the output entry's column. -/
theorem rhs_col (j : S5000x512.Idx) (q : dot_S5000x128_S128x512_S5000x512_1_0_0_1_n_n.contr.Idx) :
    (dot_S5000x128_S128x512_S5000x512_1_0_0_1_n_n.rhsIdx j q 1).val = (j 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

/-- Entry (row of `j`, `k`) of a loaded input block. -/
abbrev lcoord (j : S5000x512.Idx) (k : Fin 128) : S5000x128.Idx := fun a => match a with
  | ⟨0, _⟩ => ⟨(j 0).val, (j 0).isLt⟩
  | ⟨1, _⟩ => ⟨k.val, k.isLt⟩
/-- Entry (`k`, column of `j`) of the weight array. -/
abbrev rcoord (j : S5000x512.Idx) (k : Fin 128) : S128x512.Idx := fun a => match a with
  | ⟨0, _⟩ => ⟨k.val, k.isLt⟩
  | ⟨1, _⟩ => ⟨(j 1).val, (j 1).isLt⟩
/-- The bias entry of `j`'s column. -/
abbrev bcoord (j : S5000x512.Idx) : S512.Idx := fun a => match a with
  | ⟨0, _⟩ => ⟨(j 1).val, (j 1).isLt⟩
/-- The same entry in the bias's one-row cast. -/
abbrev browcoord (j : S5000x512.Idx) : S1x512.Idx := fun a => match a with
  | ⟨0, _⟩ => ⟨0, Nat.one_pos⟩
  | ⟨1, _⟩ => ⟨(j 1).val, (j 1).isLt⟩

/-- The product part at entry `j`: the sum over the 128 contracted indices. -/
theorem product_apply (x0 : Vec Ideal S5000x128 .f32) (x1 : Vec Ideal S128x512 .f32) (j : S5000x512.Idx) :
    matmul (F := Ideal) dot_S5000x128_S128x512_S5000x512_1_0_0_1_n_n none (truncf .bf16 x0 bitsLt_bf16_f32) (truncf .bf16 x1 bitsLt_bf16_f32) (constant (F := Ideal) S5000x512 .f32 0x00000000#32) j
      = ∑ k : Fin 128, x0 (lcoord j k) * x1 (rcoord j k) := by
  refine (Ideal.matmul_constant_zero_apply dot_S5000x128_S128x512_S5000x512_1_0_0_1_n_n none _ _ j).trans ?_
  rw [← Equiv.sum_comp (ValueIdx.contrEquiv1 dot_S5000x128_S128x512_S5000x512_1_0_0_1_n_n 128 rfl rfl).symm]
  refine Finset.sum_congr rfl fun k _ => ?_
  have hk := ValueIdx.contrEquiv1_symm_val dot_S5000x128_S128x512_S5000x512_1_0_0_1_n_n 128 rfl rfl k
  have el : dot_S5000x128_S128x512_S5000x512_1_0_0_1_n_n.lhsIdx j ((ValueIdx.contrEquiv1 dot_S5000x128_S128x512_S5000x512_1_0_0_1_n_n 128 rfl rfl).symm k) = lcoord j k := funext fun a => Fin.ext (by
    match a with
    | ⟨0, _⟩ => exact lhs_row _ _
    | ⟨1, _⟩ => exact (lhs_col _ _).trans hk)
  have er : dot_S5000x128_S128x512_S5000x512_1_0_0_1_n_n.rhsIdx j ((ValueIdx.contrEquiv1 dot_S5000x128_S128x512_S5000x512_1_0_0_1_n_n 128 rfl rfl).symm k) = rcoord j k := funext fun a => Fin.ext (by
    match a with
    | ⟨0, _⟩ => exact (rhs_row _ _).trans hk
    | ⟨1, _⟩ => exact rhs_col _ _)
  rw [el, er]
  simp only [ValueIdx.truncf_apply]

/-- The bias laid along every row, at entry `j`: the bias entry of `j`'s column. -/
theorem bias_apply (x2 : Vec Ideal S512 .f32) (j : S5000x512.Idx) :
    broadcastTo S5000x512 (shapeCast S1x512 x2 shapeCasts_S512_S1x512) broadcasts_S1x512_S5000x512 j = x2 (bcoord j) := by
  have e1 := broadcastTo_apply (shapeCast S1x512 x2 shapeCasts_S512_S1x512) broadcasts_S1x512_S5000x512 j (browcoord j) (fun a => match a with
    | ⟨0, _⟩ => by show 0 = if (1 : Nat) = 1 then 0 else (j 0).val; rw [if_pos rfl]
    | ⟨1, _⟩ => by show (j 1).val = if (512 : Nat) = 1 then 0 else (j 1).val; rw [if_neg (by decide)])
  have e2 := shapeCast_apply x2 shapeCasts_S512_S1x512 (browcoord j) (bcoord j) (by
    rw [Shape.rowMajor_val_two, Shape.rowMajor_val_one]; show (j 1).val = 0 * 512 + (j 1).val; omega)
  exact e1.trans e2

/-- What the body stores at entry `j` of its output block. -/
theorem stored_apply (x0 : Vec Ideal S5000x128 .f32) (x1 : Vec Ideal S128x512 .f32) (x2 : Vec Ideal S512 .f32) (j : S5000x512.Idx) :
    k0_pay1 x0 x1 x2 j
      = FloatOps.maximumf (FloatOps.addf (∑ k : Fin 128, x0 (lcoord j k) * x1 (rcoord j k)) (x2 (bcoord j))) (FloatOps.ofBits .f32 0x00000000#32) := by
  unfold k0_pay1
  exact congrArg₂ (fun a b : Ideal .f32 => FloatOps.maximumf (FloatOps.addf a b) (FloatOps.ofBits .f32 0x00000000#32))
    (product_apply x0 x1 j) (bias_apply x2 j)

/-! ## The blocks -/

theorem origin : (![0, 0] : Fin 2 → Nat) = fun _ => 0 := funext fun a => by fin_cases a <;> rfl
theorem origin1 : (![0] : Fin 1 → Nat) = fun _ => 0 := funext fun a => by fin_cases a; rfl

/-- The index maps over the grid: point `t` reads and writes row block `t`; the weights and the bias are one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry `y` of the input block at point `t` is entry (5000·t + row, column) of the input array. -/
theorem input_block (c : Dev nD) (t : Fin cfg0.N) (y : S5000x128.Idx) (i : S50000x128.Idx)
    (h0 : (i 0).val = t.val * 5000 + (y 0).val) (h1 : (i 1).val = (y 1).val) :
    iblk0 V c 0 t y = V c main_arg0 i := by
  show V c main_arg0 (((cfg0.win 0).blk t).view.emb y) = V c main_arg0 i
  refine congrArg (V c main_arg0) (funext fun a => Fin.ext ?_)
  obtain ⟨e0, e1, e2, e3, e4, e5, e6⟩ := block_index t
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight block at every point is the weight array. -/
theorem weight_block (c : Dev nD) (t : Fin cfg0.N) (y : S128x512.Idx) (i : S128x512.Idx)
    (h0 : (i 0).val = (y 0).val) (h1 : (i 1).val = (y 1).val) :
    iblk0 V c 1 t y = V c main_arg3 i := by
  show V c main_arg3 (((cfg0.win 1).blk t).view.emb y) = V c main_arg3 i
  refine congrArg (V c main_arg3) (funext fun a => Fin.ext ?_)
  obtain ⟨e0, e1, e2, e3, e4, e5, e6⟩ := block_index t
  match a with
  | ⟨0, _⟩ => show win0_1.index t (0 : Fin 2) * 128 + 1 * (y 0).val = (i 0).val; omega
  | ⟨1, _⟩ => show win0_1.index t (1 : Fin 2) * 512 + 1 * (y 1).val = (i 1).val; omega

/-- The bias block at every point is the bias vector. -/
theorem bias_block (c : Dev nD) (t : Fin cfg0.N) (y : S512.Idx) (i : S512.Idx) (h0 : (i 0).val = (y 0).val) :
    iblk0 V c 2 t y = V c main_arg4 i := by
  show V c main_arg4 (((cfg0.win 2).blk t).view.emb y) = V c main_arg4 i
  refine congrArg (V c main_arg4) (funext fun a => Fin.ext ?_)
  obtain ⟨e0, e1, e2, e3, e4, e5, e6⟩ := block_index t
  match a with
  | ⟨0, _⟩ => show win0_2.index t (0 : Fin 1) * 512 + 1 * (y 0).val = (i 0).val; omega

/-- Entry `j` of the result block at point `t` lands in row 5000·t + row of the result array … -/
theorem out_row (t : Fin cfg0.N) (j : S5000x512.Idx) :
    ((((cfg0.win 3).blk t).view.emb j) 0).val = t.val * 5000 + (j 0).val := by
  obtain ⟨e0, e1, e2, e3, e4, e5, e6⟩ := block_index t
  show win0_3.index t (0 : Fin 2) * 5000 + 1 * (j 0).val = _
  omega
/-- … and in its own column. -/
theorem out_col (t : Fin cfg0.N) (j : S5000x512.Idx) :
    ((((cfg0.win 3).blk t).view.emb j) 1).val = (j 1).val := by
  obtain ⟨e0, e1, e2, e3, e4, e5, e6⟩ := block_index t
  show win0_3.index t (1 : Fin 2) * 512 + 1 * (j 1).val = _
  omega

/-! ## What a point writes back, and the array after the region -/

/-- What point `t` writes back is block `t` of the reference's rectified first layer of the arrays the region finds. -/
theorem flushed_eq (c : Dev nD) (x0 : (⟨Cert.ReferenceIdeal.S50000x128, .f32⟩ : BufTy).Contents (Elt Ideal)) (x3 : (⟨Cert.ReferenceIdeal.S128x512, .f32⟩ : BufTy).Contents (Elt Ideal)) (x4 : (⟨Cert.ReferenceIdeal.S512, .f32⟩ : BufTy).Contents (Elt Ideal))
    (h0 : V c main_arg0 = x0) (h3 : V c main_arg3 = x3) (h4 : V c main_arg4 = x4) (t : Fin cfg0.N) :
    (dat0 V c).flushed 3 t = ((cfg0.win 3).blk t).view.read (Elt Ideal) (val_main_v31 (F := Ideal) x0 x3 x4) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x512) origin, View.ld_unit_zero (S := S512) origin1]
  funext j
  show k0_pay1 (iblk0 V c 0 t) (iblk0 V c 1 t) (iblk0 V c 2 t) j = val_main_v31 (F := Ideal) x0 x3 x4 (((cfg0.win 3).blk t).view.emb j)
  refine (stored_apply (iblk0 V c 0 t) (iblk0 V c 1 t) (iblk0 V c 2 t) j).trans ?_
  rw [val_main_v31_apply, val_main_v30_apply, val_main_v27_apply, val_main_v29_apply, val_main_v28_apply, val_main_call0_v0_apply, val_main_call0_cst_apply]
  refine congrArg₂ (fun a b : Ideal .f32 => FloatOps.maximumf (FloatOps.addf a b) (FloatOps.ofBits .f32 0x00000000#32)) ?_ ?_
  · refine Finset.sum_congr rfl fun k _ => ?_
    rw [input_block V c t (lcoord j k) (lidx_main_v27 (((cfg0.win 3).blk t).view.emb j) k) (out_row t j) rfl,
      weight_block V c t (rcoord j k) (ridx_main_v27 (((cfg0.win 3).blk t).view.emb j) k) rfl (out_col t j), h0, h3]
  · rw [bias_block V c t (bcoord j) (idx_main_v28 (idx_main_v29 (((cfg0.win 3).blk t).view.emb j))) (out_col t j), h4]

/-- An index of the result array is in point `t`'s block iff each coordinate is in the block's range. -/
theorem mem_block (t : Fin cfg0.N) (i : S50000x512.Idx) :
    i ∈ ((cfg0.win 3).blk t).view.set ↔ ∀ a : Fin 2, win0_3.index t a * S5000x512.size a ≤ (i a).val ∧ (i a).val < win0_3.index t a * S5000x512.size a + S5000x512.size a := by
  show i ∈ ((View.whole main_v27).slice (win0_3.rect t)).set ↔ _
  rw [View.set_slice_whole, Rect.mem_set_unit]
  exact Iff.rfl

/-- The ten row blocks tile the result array: row `r` is in block `r / 5000`. -/
theorem covered (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  obtain ⟨t, ht⟩ : ∃ t : Fin cfg0.N, t.val = (i 0).val / 5000 :=
    ⟨⟨(i 0).val / 5000, by rw [show cfg0.N = 10 from N_0]; omega⟩, rfl⟩
  refine ⟨t, flush0_3 t, ?_⟩
  rw [mem_block]
  obtain ⟨e0, e1, e2, e3, e4, e5, e6⟩ := block_index t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 512 ≤ (i 1).val ∧ (i 1).val < win0_3.index t (1 : Fin 2) * 512 + 512; omega

/-- After the region the result array is the reference's rectified first layer of the three arrays the region finds. -/
theorem array_eq (c : Dev nD) (x0 : (⟨Cert.ReferenceIdeal.S50000x128, .f32⟩ : BufTy).Contents (Elt Ideal)) (x3 : (⟨Cert.ReferenceIdeal.S128x512, .f32⟩ : BufTy).Contents (Elt Ideal)) (x4 : (⟨Cert.ReferenceIdeal.S512, .f32⟩ : BufTy).Contents (Elt Ideal))
    (h0 : V c main_arg0 = x0) (h3 : V c main_arg3 = x3) (h4 : V c main_arg4 = x4) :
    (dat0 V c).arrAt 3 cfg0.N = val_main_v31 (F := Ideal) x0 x3 x4 :=
  (dat0 V c).arrAt_eq_of_cover 3 _ (fun t _ => flushed_eq V c x0 x3 x4 h0 h3 h4 t) covered

end Cert.KernelIdeal.Region0

end
-- ==== Proof.Region1.lean ====
/- Region 1 of the idealized kernel: the row-tiled product h · Wc1.
   Grid point t loads rows 5000·t … 5000·t + 4999 of the [50000, 512] activation array and the whole [512, 256] weight
   array, and stores their matrix product (into a zero accumulator; the change of float format is the identity on
   extended reals) as rows 5000·t … of the [50000, 256] result. The ten row blocks tile the result, so after the
   region the result array is, entry by entry, (r, q) ↦ ∑ k, h (r, k) · Wc1 (k, q): the reference's host product of
   the same two arrays. No law of the extended reals is needed beyond reading both sums over the same index set. -/
import proofs.«143197_j30648886624547_1_alg».proof.Proof.Gen.KernelIdeal.Frame
import proofs.«143197_j30648886624547_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen
open Cert.ReferenceIdeal.Read

variable (V : (c : Dev nD) → (b : Ref sig .tc) → Buf (Elt Ideal) ((c : Thread nD τ).loc b))

/-! ## The body's product at an entry -/

/-- Row coordinate of the left factor at output entry `j`: its own row. -/
theorem lhs_row (j : S5000x256.Idx) (q : dot_S5000x512_S512x256_S5000x256_1_0_0_1_n_n.contr.Idx) :
    (dot_S5000x512_S512x256_S5000x256_1_0_0_1_n_n.lhsIdx j q 0).val = (j 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
/-- Column coordinate of the left factor: the contracted index. -/
theorem lhs_col (j : S5000x256.Idx) (q : dot_S5000x512_S512x256_S5000x256_1_0_0_1_n_n.contr.Idx) :
    (dot_S5000x512_S512x256_S5000x256_1_0_0_1_n_n.lhsIdx j q 1).val = (q ⟨0, by decide⟩).val :=
  dot_S5000x512_S512x256_S5000x256_1_0_0_1_n_n.lhsIdx_val_of_single rfl j q
/-- Row coordinate of the right factor: the contracted index. -/
theorem rhs_row (j : S5000x256.Idx) (q : dot_S5000x512_S512x256_S5000x256_1_0_0_1_n_n.contr.Idx) :
    (dot_S5000x512_S512x256_S5000x256_1_0_0_1_n_n.rhsIdx j q 0).val = (q ⟨0, by decide⟩).val :=
  dot_S5000x512_S512x256_S5000x256_1_0_0_1_n_n.rhsIdx_val_of_single rfl j q
/-- Column coordinate of the right factor: the output entry's column. -/
theorem rhs_col (j : S5000x256.Idx) (q : dot_S5000x512_S512x256_S5000x256_1_0_0_1_n_n.contr.Idx) :
    (dot_S5000x512_S512x256_S5000x256_1_0_0_1_n_n.rhsIdx j q 1).val = (j 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- Entry (row of `j`, `k`) of a loaded activation block. -/
abbrev lcoord (j : S5000x256.Idx) (k : Fin 512) : S5000x512.Idx := fun a => match a with
  | ⟨0, _⟩ => ⟨(j 0).val, (j 0).isLt⟩
  | ⟨1, _⟩ => ⟨k.val, k.isLt⟩
/-- Entry (`k`, column of `j`) of the weight array. -/
abbrev rcoord (j : S5000x256.Idx) (k : Fin 512) : S512x256.Idx := fun a => match a with
  | ⟨0, _⟩ => ⟨k.val, k.isLt⟩
  | ⟨1, _⟩ => ⟨(j 1).val, (j 1).isLt⟩

/-- What the body stores at entry `j` of its output block: the sum over the 512 contracted indices of the products
    of the loaded block's row entries with the weight array's column entries. -/
theorem stored_apply (x0 : Vec Ideal S5000x512 .f32) (x1 : Vec Ideal S512x256 .f32) (j : S5000x256.Idx) :
    k1_pay1 x0 x1 j = ∑ k : Fin 512, x0 (lcoord j k) * x1 (rcoord j k) := by
  unfold k1_pay1
  refine (Ideal.matmul_constant_zero_apply dot_S5000x512_S512x256_S5000x256_1_0_0_1_n_n none _ _ j).trans ?_
  rw [← Equiv.sum_comp (ValueIdx.contrEquiv1 dot_S5000x512_S512x256_S5000x256_1_0_0_1_n_n 512 rfl rfl).symm]
  refine Finset.sum_congr rfl fun k _ => ?_
  have hk := ValueIdx.contrEquiv1_symm_val dot_S5000x512_S512x256_S5000x256_1_0_0_1_n_n 512 rfl rfl k
  have el : dot_S5000x512_S512x256_S5000x256_1_0_0_1_n_n.lhsIdx j ((ValueIdx.contrEquiv1 dot_S5000x512_S512x256_S5000x256_1_0_0_1_n_n 512 rfl rfl).symm k) = lcoord j k := funext fun a => Fin.ext (by
    match a with
    | ⟨0, _⟩ => exact lhs_row _ _
    | ⟨1, _⟩ => exact (lhs_col _ _).trans hk)
  have er : dot_S5000x512_S512x256_S5000x256_1_0_0_1_n_n.rhsIdx j ((ValueIdx.contrEquiv1 dot_S5000x512_S512x256_S5000x256_1_0_0_1_n_n 512 rfl rfl).symm k) = rcoord j k := funext fun a => Fin.ext (by
    match a with
    | ⟨0, _⟩ => exact (rhs_row _ _).trans hk
    | ⟨1, _⟩ => exact rhs_col _ _)
  rw [el, er]
  simp only [ValueIdx.truncf_apply, shapeCast_self]

/-! ## The blocks -/

theorem origin : (![0, 0] : Fin 2 → Nat) = fun _ => 0 := funext fun a => by fin_cases a <;> rfl

/-- The index maps over the grid: point `t` reads and writes row block `t`; the weight array is one block. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `y` of the activation block at point `t` is entry (5000·t + row, column) of the activation array. -/
theorem act_block (c : Dev nD) (t : Fin cfg1.N) (y : S5000x512.Idx) (i : S50000x512.Idx)
    (h0 : (i 0).val = t.val * 5000 + (y 0).val) (h1 : (i 1).val = (y 1).val) :
    iblk1 V c 0 t y = V c main_v27 i := by
  show V c main_v27 (((cfg1.win 0).blk t).view.emb y) = V c main_v27 i
  refine congrArg (V c main_v27) (funext fun a => Fin.ext ?_)
  obtain ⟨e0, e1, e2, e3, e4, e5⟩ := block_index t
  match a with
  | ⟨0, _⟩ => show win1_0.index t (0 : Fin 2) * 5000 + 1 * (y 0).val = (i 0).val; omega
  | ⟨1, _⟩ => show win1_0.index t (1 : Fin 2) * 512 + 1 * (y 1).val = (i 1).val; omega

/-- The weight block at every point is the weight array. -/
theorem weight_block (c : Dev nD) (t : Fin cfg1.N) (y : S512x256.Idx) (i : S512x256.Idx)
    (h0 : (i 0).val = (y 0).val) (h1 : (i 1).val = (y 1).val) :
    iblk1 V c 1 t y = V c main_arg5 i := by
  show V c main_arg5 (((cfg1.win 1).blk t).view.emb y) = V c main_arg5 i
  refine congrArg (V c main_arg5) (funext fun a => Fin.ext ?_)
  obtain ⟨e0, e1, e2, e3, e4, e5⟩ := block_index t
  match a with
  | ⟨0, _⟩ => show win1_1.index t (0 : Fin 2) * 512 + 1 * (y 0).val = (i 0).val; omega
  | ⟨1, _⟩ => show win1_1.index t (1 : Fin 2) * 256 + 1 * (y 1).val = (i 1).val; omega

/-- Entry `j` of the result block at point `t` lands in row 5000·t + row of the result array … -/
theorem out_row (t : Fin cfg1.N) (j : S5000x256.Idx) :
    ((((cfg1.win 2).blk t).view.emb j) 0).val = t.val * 5000 + (j 0).val := by
  obtain ⟨e0, e1, e2, e3, e4, e5⟩ := block_index t
  show win1_2.index t (0 : Fin 2) * 5000 + 1 * (j 0).val = _
  omega
/-- … and in its own column. -/
theorem out_col (t : Fin cfg1.N) (j : S5000x256.Idx) :
    ((((cfg1.win 2).blk t).view.emb j) 1).val = (j 1).val := by
  obtain ⟨e0, e1, e2, e3, e4, e5⟩ := block_index t
  show win1_2.index t (1 : Fin 2) * 256 + 1 * (j 1).val = _
  omega

/-! ## What a point writes back, and the array after the region -/

/-- Reading block `t` of an array through the result window is reading the array where the block's entries land. -/
theorem read_out (t : Fin cfg1.N) (G : S50000x256.Idx → Elt Ideal .f32) (j : S5000x256.Idx) :
    ((cfg1.win 2).blk t).view.read (Elt Ideal) G j = G (((cfg1.win 2).blk t).view.emb j) := rfl

/-- What point `t` writes back is block `t` of the reference's product of the activations with the weights, when
    the activation array the region finds is the reference's rectified first layer. -/
theorem flushed_eq (c : Dev nD) (x0 : (⟨Cert.ReferenceIdeal.S50000x128, .f32⟩ : BufTy).Contents (Elt Ideal))
    (x3 : (⟨Cert.ReferenceIdeal.S128x512, .f32⟩ : BufTy).Contents (Elt Ideal)) (x4 : (⟨Cert.ReferenceIdeal.S512, .f32⟩ : BufTy).Contents (Elt Ideal))
    (x5 : (⟨Cert.ReferenceIdeal.S512x256, .f32⟩ : BufTy).Contents (Elt Ideal))
    (h27 : V c main_v27 = val_main_v31 (F := Ideal) x0 x3 x4) (h5 : V c main_arg5 = x5) (t : Fin cfg1.N) :
    (dat1 V c).flushed 2 t = ((cfg1.win 2).blk t).view.read (Elt Ideal) (val_main_v32 (F := Ideal) x0 x3 x4 x5) := by
  show (cfg1.win 2).cut (grid1.coords t) ((dat1 V c).after 2 t) = _
  rw [after1_2]
  unfold out1_2
  rw [View.canon_unit_zero origin]
  simp only [View.ld_unit_zero (S := S5000x512) origin, View.ld_unit_zero (S := S512x256) origin]
  funext j
  show k1_pay1 (iblk1 V c 0 t) (iblk1 V c 1 t) j = _
  refine (stored_apply (iblk1 V c 0 t) (iblk1 V c 1 t) j).trans ?_
  refine Eq.trans ?_ (read_out t (val_main_v32 (F := Ideal) x0 x3 x4 x5) j).symm
  rw [val_main_v32_apply]
  refine Finset.sum_congr rfl fun k _ => ?_
  rw [act_block V c t (lcoord j k) (lidx_main_v32 (((cfg1.win 2).blk t).view.emb j) k) (out_row t j) rfl,
    weight_block V c t (rcoord j k) (ridx_main_v32 (((cfg1.win 2).blk t).view.emb j) k) rfl (out_col t j), h27, h5]

/-- An index of the result array is in point `t`'s block iff each coordinate is in the block's range. -/
theorem mem_block (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v28).slice (win1_2.rect t)).set ↔ _
  rw [View.set_slice_whole, Rect.mem_set_unit]
  exact Iff.rfl

/-- The ten row blocks tile the result array: row `r` is in block `r / 5000`. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, by rw [show cfg1.N = 10 from N_1]; omega⟩, rfl⟩
  refine ⟨t, flush1_2 t, ?_⟩
  rw [mem_block]
  obtain ⟨e0, e1, e2, e3, e4, e5⟩ := block_index t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the region the result array is the reference's product `h · Wc1`, when the region finds the reference's
    rectified first layer in its activation array and the weights in its weight array. -/
theorem array_eq (c : Dev nD) (x0 : (⟨Cert.ReferenceIdeal.S50000x128, .f32⟩ : BufTy).Contents (Elt Ideal))
    (x3 : (⟨Cert.ReferenceIdeal.S128x512, .f32⟩ : BufTy).Contents (Elt Ideal)) (x4 : (⟨Cert.ReferenceIdeal.S512, .f32⟩ : BufTy).Contents (Elt Ideal))
    (x5 : (⟨Cert.ReferenceIdeal.S512x256, .f32⟩ : BufTy).Contents (Elt Ideal))
    (h27 : V c main_v27 = val_main_v31 (F := Ideal) x0 x3 x4) (h5 : V c main_arg5 = x5) :
    (dat1 V c).arrAt 2 cfg1.N = val_main_v32 (F := Ideal) x0 x3 x4 x5 :=
  (dat1 V c).arrAt_eq_of_cover 2 _ (fun t _ => flushed_eq V c x0 x3 x4 x5 h27 h5 t) covered

end Cert.KernelIdeal.Region1

end
-- ==== Proof.Region2.lean ====
/- Region 2 of the idealized kernel: the row-tiled product h1 · Wc2.
   Grid point t loads rows 5000·t … 5000·t + 4999 of the [50000, 256] activation array and the whole [256, 256] weight
   array, and stores their matrix product (into a zero accumulator; the change of float format is the identity on
   extended reals) as rows 5000·t … of the [50000, 256] result. The ten row blocks tile the result, so after the
   region the result array is, entry by entry, (r, q) ↦ ∑ k, h1 (r, k) · Wc2 (k, q): the reference's host product of
   the same two arrays. No law of the extended reals is needed beyond reading both sums over the same index set. -/
import proofs.«143197_j30648886624547_1_alg».proof.Proof.Gen.KernelIdeal.Frame
import proofs.«143197_j30648886624547_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.SL.Sem
open Idealize.ShloMosaic.Pipeline (Dat Cfg Window)
open Cert.KernelIdeal Cert.KernelIdeal.Gen
open Cert.ReferenceIdeal.Read

variable (V : (c : Dev nD) → (b : Ref sig .tc) → Buf (Elt Ideal) ((c : Thread nD τ).loc b))

/-! ## The body's product at an entry -/

/-- Row coordinate of the left factor at output entry `j`: its own row. -/
theorem lhs_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- Column coordinate of the left factor: the contracted index. -/
theorem lhs_col (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q
/-- Row coordinate of the right factor: the contracted index. -/
theorem rhs_row (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q
/-- Column coordinate of the right factor: the output entry's column. -/
theorem rhs_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Entry (row of `j`, `k`) of a loaded activation block. -/
abbrev lcoord (j : S5000x256.Idx) (k : Fin 256) : S5000x256.Idx := fun a => match a with
  | ⟨0, _⟩ => ⟨(j 0).val, (j 0).isLt⟩
  | ⟨1, _⟩ => ⟨k.val, k.isLt⟩
/-- Entry (`k`, column of `j`) of the weight array. -/
abbrev rcoord (j : S5000x256.Idx) (k : Fin 256) : S256x256.Idx := fun a => match a with
  | ⟨0, _⟩ => ⟨k.val, k.isLt⟩
  | ⟨1, _⟩ => ⟨(j 1).val, (j 1).isLt⟩

/-- What the body stores at entry `j` of its output block: the sum over the 256 contracted indices of the products
    of the loaded block's row entries with the weight array's column entries. -/
theorem stored_apply (x0 : Vec Ideal S5000x256 .f32) (x1 : Vec Ideal S256x256 .f32) (j : S5000x256.Idx) :
    k2_pay1 x0 x1 j = ∑ k : Fin 256, x0 (lcoord j k) * x1 (rcoord j k) := by
  unfold k2_pay1
  refine (Ideal.matmul_constant_zero_apply dot_S5000x256_S256x256_S5000x256_1_0_0_1_n_n none _ _ j).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j ((ValueIdx.contrEquiv1 dot_S5000x256_S256x256_S5000x256_1_0_0_1_n_n 256 rfl rfl).symm k) = lcoord j k := funext fun a => Fin.ext (by
    match a with
    | ⟨0, _⟩ => exact lhs_row _ _
    | ⟨1, _⟩ => exact (lhs_col _ _).trans hk)
  have er : dot_S5000x256_S256x256_S5000x256_1_0_0_1_n_n.rhsIdx j ((ValueIdx.contrEquiv1 dot_S5000x256_S256x256_S5000x256_1_0_0_1_n_n 256 rfl rfl).symm k) = rcoord j k := funext fun a => Fin.ext (by
    match a with
    | ⟨0, _⟩ => exact (rhs_row _ _).trans hk
    | ⟨1, _⟩ => exact rhs_col _ _)
  rw [el, er]
  simp only [ValueIdx.truncf_apply, shapeCast_self]

/-! ## The blocks -/

theorem origin : (![0, 0] : Fin 2 → Nat) = fun _ => 0 := funext fun a => by fin_cases a <;> rfl

/-- The index maps over the grid: point `t` reads and writes row block `t`; the weight array is one block. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `y` of the activation block at point `t` is entry (5000·t + row, column) of the activation array. -/
theorem act_block (c : Dev nD) (t : Fin cfg2.N) (y : S5000x256.Idx) (i : S50000x256.Idx)
    (h0 : (i 0).val = t.val * 5000 + (y 0).val) (h1 : (i 1).val = (y 1).val) :
    iblk2 V c 0 t y = V c main_v45 i := by
  show V c main_v45 (((cfg2.win 0).blk t).view.emb y) = V c main_v45 i
  refine congrArg (V c main_v45) (funext fun a => Fin.ext ?_)
  obtain ⟨e0, e1, e2, e3, e4, e5⟩ := block_index t
  match a with
  | ⟨0, _⟩ => show win2_0.index t (0 : Fin 2) * 5000 + 1 * (y 0).val = (i 0).val; omega
  | ⟨1, _⟩ => show win2_0.index t (1 : Fin 2) * 256 + 1 * (y 1).val = (i 1).val; omega

/-- The weight block at every point is the weight array. -/
theorem weight_block (c : Dev nD) (t : Fin cfg2.N) (y : S256x256.Idx) (i : S256x256.Idx)
    (h0 : (i 0).val = (y 0).val) (h1 : (i 1).val = (y 1).val) :
    iblk2 V c 1 t y = V c main_arg7 i := by
  show V c main_arg7 (((cfg2.win 1).blk t).view.emb y) = V c main_arg7 i
  refine congrArg (V c main_arg7) (funext fun a => Fin.ext ?_)
  obtain ⟨e0, e1, e2, e3, e4, e5⟩ := block_index t
  match a with
  | ⟨0, _⟩ => show win2_1.index t (0 : Fin 2) * 256 + 1 * (y 0).val = (i 0).val; omega
  | ⟨1, _⟩ => show win2_1.index t (1 : Fin 2) * 256 + 1 * (y 1).val = (i 1).val; omega

/-- Entry `j` of the result block at point `t` lands in row 5000·t + row of the result array … -/
theorem out_row (t : Fin cfg2.N) (j : S5000x256.Idx) :
    ((((cfg2.win 2).blk t).view.emb j) 0).val = t.val * 5000 + (j 0).val := by
  obtain ⟨e0, e1, e2, e3, e4, e5⟩ := block_index t
  show win2_2.index t (0 : Fin 2) * 5000 + 1 * (j 0).val = _
  omega
/-- … and in its own column. -/
theorem out_col (t : Fin cfg2.N) (j : S5000x256.Idx) :
    ((((cfg2.win 2).blk t).view.emb j) 1).val = (j 1).val := by
  obtain ⟨e0, e1, e2, e3, e4, e5⟩ := block_index t
  show win2_2.index t (1 : Fin 2) * 256 + 1 * (j 1).val = _
  omega

/-! ## What a point writes back, and the array after the region -/

/-- Reading block `t` of an array through the result window is reading the array where the block's entries land. -/
theorem read_out (t : Fin cfg2.N) (G : S50000x256.Idx → Elt Ideal .f32) (j : S5000x256.Idx) :
    ((cfg2.win 2).blk t).view.read (Elt Ideal) G j = G (((cfg2.win 2).blk t).view.emb j) := rfl

/-- What point `t` writes back is block `t` of the reference's product of the activations with the weights, when
    the activation array the region finds is the reference's rectified first aggregate. -/
theorem flushed_eq (c : Dev nD) (x0 : (⟨Cert.ReferenceIdeal.S50000x128, .f32⟩ : BufTy).Contents (Elt Ideal))
    (x1 : (⟨Cert.ReferenceIdeal.S2x800000, .i32⟩ : BufTy).Contents (Elt Ideal))
    (x3 : (⟨Cert.ReferenceIdeal.S128x512, .f32⟩ : BufTy).Contents (Elt Ideal)) (x4 : (⟨Cert.ReferenceIdeal.S512, .f32⟩ : BufTy).Contents (Elt Ideal))
    (x5 : (⟨Cert.ReferenceIdeal.S512x256, .f32⟩ : BufTy).Contents (Elt Ideal)) (x6 : (⟨Cert.ReferenceIdeal.S256, .f32⟩ : BufTy).Contents (Elt Ideal))
    (x7 : (⟨Cert.ReferenceIdeal.S256x256, .f32⟩ : BufTy).Contents (Elt Ideal))
    (h45 : V c main_v45 = val_main_v49 (F := Ideal) x0 x1 x3 x4 x5 x6) (h7 : V c main_arg7 = x7) (t : Fin cfg2.N) :
    (dat2 V c).flushed 2 t = ((cfg2.win 2).blk t).view.read (Elt Ideal) (val_main_v50 (F := Ideal) x0 x1 x3 x4 x5 x6 x7) := by
  show (cfg2.win 2).cut (grid2.coords t) ((dat2 V c).after 2 t) = _
  rw [after2_2]
  unfold out2_2
  rw [View.canon_unit_zero origin]
  simp only [View.ld_unit_zero (S := S5000x256) origin, View.ld_unit_zero (S := S256x256) origin]
  funext j
  show k2_pay1 (iblk2 V c 0 t) (iblk2 V c 1 t) j = _
  refine (stored_apply (iblk2 V c 0 t) (iblk2 V c 1 t) j).trans ?_
  refine Eq.trans ?_ (read_out t (val_main_v50 (F := Ideal) x0 x1 x3 x4 x5 x6 x7) j).symm
  rw [val_main_v50_apply]
  refine Finset.sum_congr rfl fun k _ => ?_
  rw [act_block V c t (lcoord j k) (lidx_main_v50 (((cfg2.win 2).blk t).view.emb j) k) (out_row t j) rfl,
    weight_block V c t (rcoord j k) (ridx_main_v50 (((cfg2.win 2).blk t).view.emb j) k) rfl (out_col t j), h45, h7]

/-- An index of the result array is in point `t`'s block iff each coordinate is in the block's range. -/
theorem mem_block (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v46).slice (win2_2.rect t)).set ↔ _
  rw [View.set_slice_whole, Rect.mem_set_unit]
  exact Iff.rfl

/-- The ten row blocks tile the result array: row `r` is in block `r / 5000`. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 5000 :=
    ⟨⟨(i 0).val / 5000, by rw [show cfg2.N = 10 from N_2]; omega⟩, rfl⟩
  refine ⟨t, flush2_2 t, ?_⟩
  rw [mem_block]
  obtain ⟨e0, e1, e2, e3, e4, e5⟩ := block_index t
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- After the region the result array is the reference's product `h1 · Wc2`, when the region finds the reference's
    rectified first aggregate in its activation array and the weights in its weight array. -/
theorem array_eq (c : Dev nD) (x0 : (⟨Cert.ReferenceIdeal.S50000x128, .f32⟩ : BufTy).Contents (Elt Ideal))
    (x1 : (⟨Cert.ReferenceIdeal.S2x800000, .i32⟩ : BufTy).Contents (Elt Ideal))
    (x3 : (⟨Cert.ReferenceIdeal.S128x512, .f32⟩ : BufTy).Contents (Elt Ideal)) (x4 : (⟨Cert.ReferenceIdeal.S512, .f32⟩ : BufTy).Contents (Elt Ideal))
    (x5 : (⟨Cert.ReferenceIdeal.S512x256, .f32⟩ : BufTy).Contents (Elt Ideal)) (x6 : (⟨Cert.ReferenceIdeal.S256, .f32⟩ : BufTy).Contents (Elt Ideal))
    (x7 : (⟨Cert.ReferenceIdeal.S256x256, .f32⟩ : BufTy).Contents (Elt Ideal))
    (h45 : V c main_v45 = val_main_v49 (F := Ideal) x0 x1 x3 x4 x5 x6) (h7 : V c main_arg7 = x7) :
    (dat2 V c).arrAt 2 cfg2.N = val_main_v50 (F := Ideal) x0 x1 x3 x4 x5 x6 x7 :=
  (dat2 V c).arrAt_eq_of_cover 2 _ (fun t _ => flushed_eq V c x0 x1 x3 x4 x5 x6 x7 h45 h7 t) covered

end Cert.KernelIdeal.Region2

end
-- ==== Proof.Stages.lean ====
/- The idealized kernel's result as a function of its arguments.
   Walking @main's boundaries in order: the first region leaves the reference's rectified first layer
   max(x · W1 + b1, 0) in its result array; the second leaves that array's product with Wc1; the host stretch after it
   gathers, scales, scatter-adds, adds the bias and rectifies exactly as the reference does, so the third region reads
   the reference's first aggregate and leaves its product with Wc2; and the last stretch (the second aggregation, the
   mean pooling and the two small dense layers) is again the reference's text. Hence @main's result buffer ends holding
   the reference's last stage of the launched argument arrays. -/
import proofs.«143197_j30648886624547_1_alg».proof.Proof.HostStages
import proofs.«143197_j30648886624547_1_alg».proof.Proof.Region0
import proofs.«143197_j30648886624547_1_alg».proof.Proof.Region1
import proofs.«143197_j30648886624547_1_alg».proof.Proof.Region2

set_option maxRecDepth 16384

noncomputable section

namespace Cert.KernelIdeal.Stages

open Idealize.ShloMosaic Idealize.ShloMosaic.TcCoe Idealize.SL.Sem
open Cert.KernelIdeal Cert.KernelIdeal.Gen Cert.KernelIdeal.Walk
open Cert.ReferenceIdeal.Read

variable (m : (ℓ : Loc nD τ sig) → Buf (Elt Ideal) ℓ) (ρ : Dev nD → PrngReg)

/-- After the first region: the rectified first layer. -/
theorem layer1_eq (c : Dev nD) :
    W2 m ρ c (Proc.devRef .tc main_v27) = val_main_v31 (F := Ideal) (m ((c.tc : Thread nD τ).loc main_arg0)) (m ((c.tc : Thread nD τ).loc main_arg3)) (m ((c.tc : Thread nD τ).loc main_arg4)) :=
  (W2_arr m ρ c 3).trans (Region0.array_eq (V1 m ρ) c _ _ _ (W1_arg0 m ρ c) (W1_arg3 m ρ c) (W1_arg4 m ρ c))

/-- After the second region: its product with the first convolution's weights. -/
theorem product1_eq (c : Dev nD) :
    W3 m ρ c (Proc.devRef .tc main_v28) = val_main_v32 (F := Ideal) (m ((c.tc : Thread nD τ).loc main_arg0)) (m ((c.tc : Thread nD τ).loc main_arg3)) (m ((c.tc : Thread nD τ).loc main_arg4)) (m ((c.tc : Thread nD τ).loc main_arg5)) :=
  (W3_arr m ρ c 2).trans (Region1.array_eq (V2 m ρ) c _ _ _ _ (layer1_eq m ρ c) (W2_arg5 m ρ c))

/-- Before the third region: the first convolution's rectified, biased aggregate. -/
theorem aggregate1_eq (c : Dev nD) :
    W5 m ρ c (Proc.devRef .tc main_v45) = val_main_v49 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  HostStages.agg1_eq m ρ c (product1_eq m ρ c)

/-- After the third region: its product with the second convolution's weights. -/
theorem product2_eq (c : Dev nD) :
    W6 m ρ c (Proc.devRef .tc main_v46) = val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W6_arr m ρ c 2).trans (Region2.array_eq (V5 m ρ) c _ _ _ _ _ _ _ (aggregate1_eq m ρ c) (W5_arg7 m ρ c))

/-- At the return: the reference's result of the launched arguments. -/
theorem result_eq (c : Dev nD) :
    W11 m ρ c (Proc.devRef .tc main_v84) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  HostStages.head_eq m ρ c (product2_eq m ρ c)

end Cert.KernelIdeal.Stages

end
-- ==== Proof.lean ====
/- The proof of `Cert.Claim`: a three-layer graph network (dense layer, two graph convolutions, mean pooling, two small
   dense layers) whose three large matrix products run as row-tiled kernels, against the same network written with
   whole host products.
   The three frames are the generated ones (the reference's is its generated run with the result dropped), and the
   idealization rewrote nothing, so `preserves` is trivial. For `algebraic`: at the ideal values a change of float
   format is the identity and a product accumulated into zero is the plain sum over the contracted index, so each
   row-tiled kernel leaves in its result array exactly the host product (Proof/Region0, Region1, Region2: ten row
   blocks of 5000 rows tile the 50000 rows); everything else in the two programs is the same sequence of host operations
   on the same values (Proof/HostStages over Proof/Walk), so the kernel's result buffer ends holding the reference's
   last stage of the arguments (Proof/Stages), read off the launch with the result buffer named (Proof/NamedRun).
   Sums are compared term by term over the same index set: no distributivity or cancellation is used, and the
   finiteness precondition is never opened. -/
import proofs.«143197_j30648886624547_1_alg».proof.Defs
import proofs.«143197_j30648886624547_1_alg».proof.Proof.Gen.Kernel
import proofs.«143197_j30648886624547_1_alg».proof.Proof.Gen.Kernel.Frame
import proofs.«143197_j30648886624547_1_alg».proof.Proof.Gen.KernelIdeal
import proofs.«143197_j30648886624547_1_alg».proof.Proof.Gen.KernelIdeal.Frame
import proofs.«143197_j30648886624547_1_alg».proof.Proof.Gen.ReferenceIdeal
import proofs.«143197_j30648886624547_1_alg».proof.Proof.Gen.ReferenceIdeal.Run
import proofs.«143197_j30648886624547_1_alg».proof.Proof.Gen.ReferenceIdeal.Read
import proofs.«143197_j30648886624547_1_alg».proof.Proof.Gen.Pre_finite_inputs
import proofs.«143197_j30648886624547_1_alg».proof.Proof.NamedRun
import proofs.«143197_j30648886624547_1_alg».proof.Proof.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) argument arrays in their result buffers. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Stages.result_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v88_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
